-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KStages.lean ====
import proofs.«137167_j42649025249306_1_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Layers

open Cert.KernelIdeal Cert.KernelIdeal.Gen

variable {F : FTy → Type} [FloatOps F]

/-- An array of a shape and element type, as the host operations take it. -/
abbrev Arr (F : FTy → Type) (s : Shape) (e : EltTy) : Type := (⟨s, e⟩ : BufTy).Contents (Elt F)

/-! ## The graph's pieces, as functions of the edge list

The edge list `e` is [2, 800000]: row 0 the targets a message is summed at, row 1 the sources it is read from. Every node
gets a self loop, so both index lists are the edge row followed by 0 … 49999. -/

/-- Where messages are summed: edge row 0, then every node. -/
def rows (e : Arr F S2x800000 .i32) : Arr F S850000 .i32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- Where messages are read: edge row 1, then every node. -/
def cols (e : Arr F S2x800000 .i32) : Arr F S850000 .i32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- An index list as a gather's start indices: a negative index counted from the end, then one column. -/
def wrap (i : Arr F S850000 .i32) : Arr F S850000x1 .i32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- Each node's degree: ones summed at `r`. -/
def deg (r : Arr F S850000 .i32) : Arr F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 r)
    (broadcastInDim S850000 ![] bcast_S_S850000 (constant S_ .f32 0x3F800000#32))

/-- deg^(-1/2) where the degree is positive, 0 elsewhere. -/
def dinv (r : Arr F S850000 .i32) : Arr F S50000 .f32 :=
  select (cmpf .ogt (deg r) (broadcastInDim S50000 ![] bcast_S_S50000 (constant S_ .f32 0x00000000#32)))
    (Host.rsqrt (deg r))
    (broadcastInDim S50000 ![] bcast_S_S50000 (id (constant S_ .f32 0x00000000#32)))

/-- The weight of each edge: dinv at its target times dinv at its source. -/
def norm (r c : Arr F S850000 .i32) : Arr F S850000 .f32 :=
  mulf (Host.gather gather_S50000_S850000x1_S850000_n_0_n_n_0_1_1 (dinv r) (wrap r))
    (Host.gather gather_S50000_S850000x1_S850000_n_0_n_n_0_1_1 (dinv r) (wrap c))

/-- One aggregation: the rows of `xw` read at `c`, each scaled by its edge's weight, summed at `r`. -/
def agg (r c : Arr F S850000 .i32) (n : Arr F S850000 .f32) (xw : Arr F S50000x128 .f32) : Arr F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 r)
    (mulf (broadcastInDim S850000x128 ![0, 1] bcast_S850000x1_S850000x128_0_1 (broadcastInDim S850000x1 ![0] bcast_S850000_S850000x1_0 n))
      (Host.gather gather_S50000x128_S850000x1_S850000x128_1_0_n_n_0_1_1128 xw (wrap c)))

/-- A bias vector as one row. -/
def rowOf (b : Arr F S128 .f32) : Arr F S1x128 .f32 := shapeCast S1x128 b shapeCasts_S128_S1x128

/-! ## The host stretches, from any contents `W` -/

section Stretches

variable (W : Valuation τ sig (Elt F))

/-- The first stretch builds both index lists from the edge list … -/
theorem s0_rows : StableHlo.after hostOps0 W (Proc.devRef .tc main_v5) = rows (W (Proc.devRef .tc main_arg1)) := by
  after_results; rfl
theorem s0_cols : StableHlo.after hostOps0 W (Proc.devRef .tc main_v6) = cols (W (Proc.devRef .tc main_arg1)) := by
  after_results; rfl
/-- … and the degree's test, its inverse root and the zero the `where` fills with. -/
theorem s0_pos : StableHlo.after hostOps0 W (Proc.devRef .tc main_v12)
    = cmpf .ogt (deg (rows (W (Proc.devRef .tc main_arg1)))) (broadcastInDim S50000 ![] bcast_S_S50000 (constant S_ .f32 0x00000000#32)) := by
  after_results; rfl
theorem s0_rsqrt : StableHlo.after hostOps0 W (Proc.devRef .tc main_v13) = Host.rsqrt (deg (rows (W (Proc.devRef .tc main_arg1)))) := by
  after_results; rfl
theorem s0_zero : StableHlo.after hostOps0 W (Proc.devRef .tc main_cst_2) = constant S_ .f32 0x00000000#32 := by
  after_results

/-- The `where`: the inverse root where the test holds, the zero elsewhere. -/
theorem s01_dinv : StableHlo.after hostOps0_1 W (Proc.devRef .tc main_v14)
    = select (W (Proc.devRef .tc main_v12)) (W (Proc.devRef .tc main_v13))
        (broadcastInDim S50000 ![] bcast_S_S50000 (id (W (Proc.devRef .tc main_cst_2)))) := by
  after_results; rfl

set_option maxHeartbeats 4000000 in
/-- The third stretch reads the `where`'s result at both index lists and multiplies. -/
theorem s02_norm : StableHlo.after hostOps0_2 W (Proc.devRef .tc main_v29)
    = mulf (Host.gather gather_S50000_S850000x1_S850000_n_0_n_n_0_1_1 (W (Proc.devRef .tc main_v14)) (wrap (W (Proc.devRef .tc main_v5))))
        (Host.gather gather_S50000_S850000x1_S850000_n_0_n_n_0_1_1 (W (Proc.devRef .tc main_v14)) (wrap (W (Proc.devRef .tc main_v6)))) := by
  after_results; rfl

set_option maxHeartbeats 4000000 in
/-- The stretch after the first product is one aggregation of it … -/
theorem s1_agg : StableHlo.after hostOps1 W (Proc.devRef .tc main_v43)
    = agg (W (Proc.devRef .tc main_v5)) (W (Proc.devRef .tc main_v6)) (W (Proc.devRef .tc main_v29)) (W (Proc.devRef .tc main_v30)) := by
  after_results; rfl
/-- … and the first bias as a row. -/
theorem s1_row : StableHlo.after hostOps1 W (Proc.devRef .tc main_v44) = rowOf (W (Proc.devRef .tc main_arg3)) := by
  after_results; rfl

set_option maxHeartbeats 4000000 in
/-- The stretch after the second product likewise. -/
theorem s3_agg : StableHlo.after hostOps3 W (Proc.devRef .tc main_v59)
    = agg (W (Proc.devRef .tc main_v5)) (W (Proc.devRef .tc main_v6)) (W (Proc.devRef .tc main_v29)) (W (Proc.devRef .tc main_v46)) := by
  after_results; rfl
theorem s3_row : StableHlo.after hostOps3 W (Proc.devRef .tc main_v60) = rowOf (W (Proc.devRef .tc main_arg5)) := by
  after_results; rfl

/-! ## What a stretch does not write it keeps -/

/-- A buffer none of a stretch's operations writes holds after it what it held before: the stretch's result buffers are
    listed by unfolding it, and the buffer differs from each. -/
macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

theorem k0_arg0 : StableHlo.after hostOps0 W (Proc.devRef .tc main_arg0) = W (Proc.devRef .tc main_arg0) := by keeps hostOps0
theorem k0_arg2 : StableHlo.after hostOps0 W (Proc.devRef .tc main_arg2) = W (Proc.devRef .tc main_arg2) := by keeps hostOps0
theorem k0_arg3 : StableHlo.after hostOps0 W (Proc.devRef .tc main_arg3) = W (Proc.devRef .tc main_arg3) := by keeps hostOps0
theorem k0_arg4 : StableHlo.after hostOps0 W (Proc.devRef .tc main_arg4) = W (Proc.devRef .tc main_arg4) := by keeps hostOps0
theorem k0_arg5 : StableHlo.after hostOps0 W (Proc.devRef .tc main_arg5) = W (Proc.devRef .tc main_arg5) := by keeps hostOps0
theorem k01_v5 : StableHlo.after hostOps0_1 W (Proc.devRef .tc main_v5) = W (Proc.devRef .tc main_v5) := by keeps hostOps0_1
theorem k01_v6 : StableHlo.after hostOps0_1 W (Proc.devRef .tc main_v6) = W (Proc.devRef .tc main_v6) := by keeps hostOps0_1
theorem k01_arg0 : StableHlo.after hostOps0_1 W (Proc.devRef .tc main_arg0) = W (Proc.devRef .tc main_arg0) := by keeps hostOps0_1
theorem k01_arg2 : StableHlo.after hostOps0_1 W (Proc.devRef .tc main_arg2) = W (Proc.devRef .tc main_arg2) := by keeps hostOps0_1
theorem k01_arg3 : StableHlo.after hostOps0_1 W (Proc.devRef .tc main_arg3) = W (Proc.devRef .tc main_arg3) := by keeps hostOps0_1
theorem k01_arg4 : StableHlo.after hostOps0_1 W (Proc.devRef .tc main_arg4) = W (Proc.devRef .tc main_arg4) := by keeps hostOps0_1
theorem k01_arg5 : StableHlo.after hostOps0_1 W (Proc.devRef .tc main_arg5) = W (Proc.devRef .tc main_arg5) := by keeps hostOps0_1
theorem k02_v5 : StableHlo.after hostOps0_2 W (Proc.devRef .tc main_v5) = W (Proc.devRef .tc main_v5) := by keeps hostOps0_2
theorem k02_v6 : StableHlo.after hostOps0_2 W (Proc.devRef .tc main_v6) = W (Proc.devRef .tc main_v6) := by keeps hostOps0_2
theorem k02_arg0 : StableHlo.after hostOps0_2 W (Proc.devRef .tc main_arg0) = W (Proc.devRef .tc main_arg0) := by keeps hostOps0_2
theorem k02_arg2 : StableHlo.after hostOps0_2 W (Proc.devRef .tc main_arg2) = W (Proc.devRef .tc main_arg2) := by keeps hostOps0_2
theorem k02_arg3 : StableHlo.after hostOps0_2 W (Proc.devRef .tc main_arg3) = W (Proc.devRef .tc main_arg3) := by keeps hostOps0_2
theorem k02_arg4 : StableHlo.after hostOps0_2 W (Proc.devRef .tc main_arg4) = W (Proc.devRef .tc main_arg4) := by keeps hostOps0_2
theorem k02_arg5 : StableHlo.after hostOps0_2 W (Proc.devRef .tc main_arg5) = W (Proc.devRef .tc main_arg5) := by keeps hostOps0_2
theorem k1_v5 : StableHlo.after hostOps1 W (Proc.devRef .tc main_v5) = W (Proc.devRef .tc main_v5) := by keeps hostOps1
theorem k1_v6 : StableHlo.after hostOps1 W (Proc.devRef .tc main_v6) = W (Proc.devRef .tc main_v6) := by keeps hostOps1
theorem k1_v29 : StableHlo.after hostOps1 W (Proc.devRef .tc main_v29) = W (Proc.devRef .tc main_v29) := by keeps hostOps1
theorem k1_arg4 : StableHlo.after hostOps1 W (Proc.devRef .tc main_arg4) = W (Proc.devRef .tc main_arg4) := by keeps hostOps1
theorem k1_arg5 : StableHlo.after hostOps1 W (Proc.devRef .tc main_arg5) = W (Proc.devRef .tc main_arg5) := by keeps hostOps1

end Stretches

end Cert.KernelIdeal.Layers

end
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.KRegions.lean ====
import proofs.«137167_j42649025249306_1_alg».proof.Proof.Gen.KernelIdeal.Frame
import proofs.«137167_j42649025249306_1_alg».proof.Proof.LibPlainProduct
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- The product of a [50000,128] array with a [128,128] one, entry by entry: row `p` of the left against column `q` of
    the right. -/
def prodAt (x : S50000x128.Idx → EReal) (w : S128x128.Idx → EReal) (p : Fin 50000) (q : Fin 128) : EReal :=
  ∑ d : Fin 128, x (ix2 p d) * w (ix2 d q)

/-- The same as one array. -/
def prod (x : S50000x128.Idx → EReal) (w : S128x128.Idx → EReal) : S50000x128.Idx → EReal :=
  fun i => prodAt x w (i 0) (i 1)

/-- The product at an entry given by its two coordinates. -/
theorem prod_ix2 (x : S50000x128.Idx → EReal) (w : S128x128.Idx → EReal) (a : Fin 50000) (b : Fin 128) :
    prod x w (ix2 a b) = ∑ d : Fin 128, x (ix2 a d) * w (ix2 d b) := rfl

theorem hz : (![0, 0] : Fin 2 → Nat) = fun _ => 0 := funext fun a => by fin_cases a <;> rfl

/-- One row tile's product: the tile's matmul into the zero accumulator, the operands' change of format the identity on
    the extended reals, is the textbook sum at every entry of the tile. -/
theorem tile_prod (x0 : Vec Ideal S5000x128 .f32) (x1 : Vec Ideal S128x128 .f32) (p : Fin 5000) (q : Fin 128) :
    k0_pay1 x0 x1 (ix2 p q) = ∑ d : Fin 128, x0 (ix2 p d) * x1 (ix2 d q) := by
  unfold k0_pay1
  exact PlainProduct.matmul_zero_apply dot_S5000x128_S128x128_S5000x128_1_0_0_1_n_n rfl rfl
    (fun _ _ => rfl) (fun _ _ => rfl) (fun _ _ => rfl) (fun _ _ => rfl) none _ _ p q

/-- A bias row added to every row of a [50000,128] array, then clipped below at zero. -/
def biasRelu (x : S50000x128.Idx → EReal) (b : S1x128.Idx → EReal) : S50000x128.Idx → EReal :=
  fun i => max (x i + b (ix2 (0 : Fin 1) (i 1))) (Scalar.ofBits (F := Ideal) .f32 0x00000000#32)

theorem biasRelu_ix2 (x : S50000x128.Idx → EReal) (b : S1x128.Idx → EReal) (a : Fin 50000) (q : Fin 128) :
    biasRelu x b (ix2 a q) = max (x (ix2 a q) + b (ix2 (0 : Fin 1) q)) (Scalar.ofBits (F := Ideal) .f32 0x00000000#32) := rfl

/-- A bias row added to every row. -/
def biasAdd (x : S50000x128.Idx → EReal) (b : S1x128.Idx → EReal) : S50000x128.Idx → EReal :=
  fun i => x i + b (ix2 (0 : Fin 1) (i 1))

theorem biasAdd_ix2 (x : S50000x128.Idx → EReal) (b : S1x128.Idx → EReal) (a : Fin 50000) (q : Fin 128) :
    biasAdd x b (ix2 a q) = x (ix2 a q) + b (ix2 (0 : Fin 1) q) := rfl

/-- One row tile of the first bias step: the tile plus the bias row, clipped below at zero, entry by entry. -/
theorem tile_biasRelu (x0 : Vec Ideal S5000x128 .f32) (x1 : Vec Ideal S1x128 .f32) (p : Fin 5000) (q : Fin 128) :
    k1_pay1 x0 x1 (ix2 p q) = max (x0 (ix2 p q) + x1 (ix2 (0 : Fin 1) q)) (Scalar.ofBits (F := Ideal) .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self]
  exact congrArg (fun z => max (x0 (ix2 p q) + z) (Scalar.ofBits (F := Ideal) .f32 0x00000000#32))
    (broadcastTo_1b_ab_apply x1 broadcasts_S1x128_S5000x128 p q)

/-- One row tile of the last bias step: the tile plus the bias row. -/
theorem tile_biasAdd (x0 : Vec Ideal S5000x128 .f32) (x1 : Vec Ideal S1x128 .f32) (p : Fin 5000) (q : Fin 128) :
    k3_pay1 x0 x1 (ix2 p q) = x0 (ix2 p q) + x1 (ix2 (0 : Fin 1) q) := by
  unfold k3_pay1
  show shapeCast S5000x128 x0 shapeCasts_S5000x128_S5000x128 (ix2 p q)
      + broadcastTo S5000x128 (shapeCast S1x128 x1 shapeCasts_S1x128_S1x128) broadcasts_S1x128_S5000x128 (ix2 p q) = _
  rw [shapeCast_self, shapeCast_self]
  exact congrArg (fun z => x0 (ix2 p q) + z) (broadcastTo_1b_ab_apply x1 broadcasts_S1x128_S5000x128 p q)

/-- The second product's tile is the same sum: its body is the first's, its left operand loaded through an identity cast. -/
theorem tile_prod2 (x0 : Vec Ideal S5000x128 .f32) (x1 : Vec Ideal S128x128 .f32) (p : Fin 5000) (q : Fin 128) :
    k2_pay1 x0 x1 (ix2 p q) = ∑ d : Fin 128, x0 (ix2 p d) * x1 (ix2 d q) := by
  have h : k2_pay1 x0 x1 = k0_pay1 x0 x1 := by
    unfold k2_pay1 k0_pay1
    simp only [shapeCast_self]
  rw [h]
  exact tile_prod x0 x1 p q

end Cert.KernelIdeal.Layers

end
-- ==== Proof.KRegionArrays.lean ====
import proofs.«137167_j42649025249306_1_alg».proof.Proof.KRegions

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

section Region0

variable (V : (c : Dev nD) → (b : Ref sig .tc) → Buf (Elt Ideal) ((c : Thread nD τ).loc b))

/-- The index maps of the first product's windows over its ten row tiles: the left operand and the result move down one
    tile per point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) (p : Fin 5000) : t.val * 5000 + p.val < 50000 := by
  have h : t.val < 10 := (show t.val < grid0.N from t.isLt).trans_eq N_0
  have := p.isLt; omega

/-- Row `p` of tile `t` of the left operand is row `5000 t + p` of the array. -/
theorem read0_x (c : Dev nD) (t : Fin cfg0.N) (p : Fin 5000) (d : Fin 128) :
    iblk0 V c 0 t (ix2 p d) = (V c main_arg0 : S50000x128.Idx → EReal) (ix2 ⟨t.val * 5000 + p.val, lt0 t p⟩ d) := by
  obtain ⟨e0, e1, -⟩ := idx0 t
  unfold iblk0
  rw [View.read_apply]
  show V c main_arg0 _ = V c main_arg0 _
  congr 1
  funext a; apply Fin.ext
  match a with
  | ⟨0, _⟩ => show win0_0.index t 0 * 5000 + 1 * p.val = t.val * 5000 + p.val; rw [e0]; omega
  | ⟨1, _⟩ => show win0_0.index t 1 * 128 + 1 * d.val = d.val; rw [e1]; omega

/-- The right operand's one block is the whole array. -/
theorem read0_w (c : Dev nD) (t : Fin cfg0.N) (d q : Fin 128) :
    iblk0 V c 1 t (ix2 d q) = (V c main_arg2 : S128x128.Idx → EReal) (ix2 d q) := by
  obtain ⟨-, -, e2, e3, -⟩ := idx0 t
  unfold iblk0
  rw [View.read_apply]
  show V c main_arg2 _ = V c main_arg2 _
  congr 1
  funext a; apply Fin.ext
  match a with
  | ⟨0, _⟩ => show win0_1.index t 0 * 128 + 1 * d.val = d.val; rw [e2]; omega
  | ⟨1, _⟩ => show win0_1.index t 1 * 128 + 1 * q.val = q.val; rw [e3]; omega

/-- Entry `(p, q)` of the result's tile `t` is entry `(5000 t + p, q)` of the array. -/
theorem out0_idx (t : Fin cfg0.N) (p : Fin 5000) (q : Fin 128) :
    (((cfg0.win 2).blk t).view.emb (ix2 p q) : S50000x128.Idx) = ix2 ⟨t.val * 5000 + p.val, lt0 t p⟩ q := by
  obtain ⟨-, -, -, -, e4, e5⟩ := idx0 t
  funext a; apply Fin.ext
  match a with
  | ⟨0, _⟩ => show win0_2.index t 0 * 5000 + 1 * p.val = t.val * 5000 + p.val; rw [e4]; omega
  | ⟨1, _⟩ => show win0_2.index t 1 * 128 + 1 * q.val = q.val; rw [e5]; omega

/-- What row tile `t` writes back is tile `t` of the whole-array result. -/
theorem flushed0 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  refine (tile_prod _ _ p q).trans ?_
  rw [View.read_apply]
  show _ = prod (V c main_arg0) (V c main_arg2) (((cfg0.win 2).blk t).view.emb (ix2 p q))
  rw [out0_idx t p q]
  refine Eq.trans ?_ (prod_ix2 (V c main_arg0) (V c main_arg2) ⟨t.val * 5000 + p.val, lt0 t p⟩ q).symm
  exact Finset.sum_congr rfl fun d _ => by rw [read0_x V c t p d, read0_w V c t d q]

/-- Every row of the result lies in some tile. -/
theorem cover0 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have ht : (i 0).val / 5000 < grid0.N := by rw [N_0]; omega
  obtain ⟨-, -, -, -, e4, e5⟩ := idx0 ⟨(i 0).val / 5000, ht⟩
  refine ⟨⟨(i 0).val / 5000, ht⟩, flush0_2 _, ?_⟩
  show i ∈ ((View.whole main_v30).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e5]; omega

/-- So the result array of the first product ends at the whole-array result of its two operands as the region finds them. -/
theorem final0 (c : Dev nD) : (dat0 V c).arrAt 2 cfg0.N = prod (V c main_arg0) (V c main_arg2) :=
  (dat0 V c).arrAt_eq_of_cover 2 (prod (V c main_arg0) (V c main_arg2)) (fun t _ => flushed0 V c t) cover0

end Region0

section Region1

variable (V : (c : Dev nD) → (b : Ref sig .tc) → Buf (Elt Ideal) ((c : Thread nD τ).loc b))

/-- The index maps of the first bias step's windows over its ten row tiles: the summed array and the result move down one
    tile per point, the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) (p : Fin 5000) : t.val * 5000 + p.val < 50000 := by
  have h : t.val < 10 := (show t.val < grid1.N from t.isLt).trans_eq N_1
  have := p.isLt; omega

/-- Row `p` of tile `t` of the summed array is row `5000 t + p` of the array. -/
theorem read1_x (c : Dev nD) (t : Fin cfg1.N) (p : Fin 5000) (d : Fin 128) :
    iblk1 V c 0 t (ix2 p d) = (V c main_v43 : S50000x128.Idx → EReal) (ix2 ⟨t.val * 5000 + p.val, lt1 t p⟩ d) := by
  obtain ⟨e0, e1, -⟩ := idx1 t
  unfold iblk1
  rw [View.read_apply]
  show V c main_v43 _ = V c main_v43 _
  congr 1
  funext a; apply Fin.ext
  match a with
  | ⟨0, _⟩ => show win1_0.index t 0 * 5000 + 1 * p.val = t.val * 5000 + p.val; rw [e0]; omega
  | ⟨1, _⟩ => show win1_0.index t 1 * 128 + 1 * d.val = d.val; rw [e1]; omega

/-- The bias row's one block is the whole row. -/
theorem read1_w (c : Dev nD) (t : Fin cfg1.N) (u : Fin 1) (q : Fin 128) :
    iblk1 V c 1 t (ix2 u q) = (V c main_v44 : S1x128.Idx → EReal) (ix2 u q) := by
  obtain ⟨-, -, e2, e3, -⟩ := idx1 t
  unfold iblk1
  rw [View.read_apply]
  show V c main_v44 _ = V c main_v44 _
  congr 1
  funext a; apply Fin.ext
  match a with
  | ⟨0, _⟩ => show win1_1.index t 0 * 1 + 1 * u.val = u.val; rw [e2]; omega
  | ⟨1, _⟩ => show win1_1.index t 1 * 128 + 1 * q.val = q.val; rw [e3]; omega

/-- Entry `(p, q)` of the result's tile `t` is entry `(5000 t + p, q)` of the array. -/
theorem out1_idx (t : Fin cfg1.N) (p : Fin 5000) (q : Fin 128) :
    (((cfg1.win 2).blk t).view.emb (ix2 p q) : S50000x128.Idx) = ix2 ⟨t.val * 5000 + p.val, lt1 t p⟩ q := by
  obtain ⟨-, -, -, -, e4, e5⟩ := idx1 t
  funext a; apply Fin.ext
  match a with
  | ⟨0, _⟩ => show win1_2.index t 0 * 5000 + 1 * p.val = t.val * 5000 + p.val; rw [e4]; omega
  | ⟨1, _⟩ => show win1_2.index t 1 * 128 + 1 * q.val = q.val; rw [e5]; omega

/-- What row tile `t` writes back is tile `t` of the whole-array result. -/
theorem flushed1 (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (tile_biasRelu _ _ p q).trans ?_
  rw [View.read_apply]
  show _ = biasRelu (V c main_v43) (V c main_v44) (((cfg1.win 2).blk t).view.emb (ix2 p q))
  rw [out1_idx t p q]
  refine Eq.trans ?_ (biasRelu_ix2 (V c main_v43) (V c main_v44) ⟨t.val * 5000 + p.val, lt1 t p⟩ q).symm
  rw [read1_x V c t p q, read1_w V c t 0 q]

/-- Every row of the result lies in some tile. -/
theorem cover1 (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have ht : (i 0).val / 5000 < grid1.N := by rw [N_1]; omega
  obtain ⟨-, -, -, -, e4, e5⟩ := idx1 ⟨(i 0).val / 5000, ht⟩
  refine ⟨⟨(i 0).val / 5000, ht⟩, flush1_2 _, ?_⟩
  show i ∈ ((View.whole main_v45).slice (win1_2.rect ⟨(i 0).val / 5000, ht⟩)).set
  rw [View.set_slice_whole, Rect.mem_set_unit]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 128 ≤ (i 1).val ∧ (i 1).val < win1_2.index ⟨(i 0).val / 5000, ht⟩ 1 * 128 + 128
    rw [e5]; omega

/-- So the result array of the first bias step ends at the whole-array result of its two operands as the region finds them. -/
theorem final1 (c : Dev nD) : (dat1 V c).arrAt 2 cfg1.N = biasRelu (V c main_v43) (V c main_v44) :=
  (dat1 V c).arrAt_eq_of_cover 2 (biasRelu (V c main_v43) (V c main_v44)) (fun t _ => flushed1 V c t) cover1

end Region1

section Region2

variable (V : (c : Dev nD) → (b : Ref sig .tc) → Buf (Elt Ideal) ((c : Thread nD τ).loc b))

/-- The index maps of the second product's windows over its ten row tiles: the left operand and the result move down one
    tile per point, the right operand stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt2 (t : Fin cfg2.N) (p : Fin 5000) : t.val * 5000 + p.val < 50000 := by
  have h : t.val < 10 := (show t.val < grid2.N from t.isLt).trans_eq N_2
  have := p.isLt; omega

/-- Row `p` of tile `t` of the left operand is row `5000 t + p` of the array. -/
theorem read2_x (c : Dev nD) (t : Fin cfg2.N) (p : Fin 5000) (d : Fin 128) :
    iblk2 V c 0 t (ix2 p d) = (V c main_v45 : S50000x128.Idx → EReal) (ix2 ⟨t.val * 5000 + p.val, lt2 t p⟩ d) := by
  obtain ⟨e0, e1, -⟩ := idx2 t
  unfold iblk2
  rw [View.read_apply]
  show V c main_v45 _ = V c main_v45 _
  congr 1
  funext a; apply Fin.ext
  match a with
  | ⟨0, _⟩ => show win2_0.index t 0 * 5000 + 1 * p.val = t.val * 5000 + p.val; rw [e0]; omega
  | ⟨1, _⟩ => show win2_0.index t 1 * 128 + 1 * d.val = d.val; rw [e1]; omega

/-- The right operand's one block is the whole array. -/
theorem read2_w (c : Dev nD) (t : Fin cfg2.N) (d q : Fin 128) :
    iblk2 V c 1 t (ix2 d q) = (V c main_arg4 : S128x128.Idx → EReal) (ix2 d q) := by
  obtain ⟨-, -, e2, e3, -⟩ := idx2 t
  unfold iblk2
  rw [View.read_apply]
  show V c main_arg4 _ = V c main_arg4 _
  congr 1
  funext a; apply Fin.ext
  match a with
  | ⟨0, _⟩ => show win2_1.index t 0 * 128 + 1 * d.val = d.val; rw [e2]; omega
  | ⟨1, _⟩ => show win2_1.index t 1 * 128 + 1 * q.val = q.val; rw [e3]; omega

/-- Entry `(p, q)` of the result's tile `t` is entry `(5000 t + p, q)` of the array. -/
theorem out2_idx (t : Fin cfg2.N) (p : Fin 5000) (q : Fin 128) :
    (((cfg2.win 2).blk t).view.emb (ix2 p q) : S50000x128.Idx) = ix2 ⟨t.val * 5000 + p.val, lt2 t p⟩ q := by
  obtain ⟨-, -, -, -, e4, e5⟩ := idx2 t
  funext a; apply Fin.ext
  match a with
  | ⟨0, _⟩ => show win2_2.index t 0 * 5000 + 1 * p.val = t.val * 5000 + p.val; rw [e4]; omega
  | ⟨1, _⟩ => show win2_2.index t 1 * 128 + 1 * q.val = q.val; rw [e5]; omega

/-- What row tile `t` writes back is tile `t` of the whole-array result. -/
theorem flushed2 (c : Dev nD) (t : Fin cfg2.N) :
    (dat2 V c).flushed 2 t = ((cfg2.win 2).blk t).view.read (Elt Ideal) (prod (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  refine (tile_prod2 _ _ p q).trans ?_
  rw [View.read_apply]
  show _ = prod (V c main_v45) (V c main_arg4) (((cfg2.win 2).blk t).view.emb (ix2 p q))
  rw [out2_idx t p q]
  refine Eq.trans ?_ (prod_ix2 (V c main_v45) (V c main_arg4) ⟨t.val * 5000 + p.val, lt2 t p⟩ q).symm
  exact Finset.sum_congr rfl fun d _ => by rw [read2_x V c t p d, read2_w V c t d q]

/-- Every row of the result lies in some tile. -/
theorem cover2 (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have ht : (i 0).val / 5000 < grid2.N := by rw [N_2]; omega
  obtain ⟨-, -, -, -, e4, e5⟩ := idx2 ⟨(i 0).val / 5000, ht⟩
  refine ⟨⟨(i 0).val / 5000, ht⟩, flush2_2 _, ?_⟩
  show i ∈ ((View.whole main_v46).slice (win2_2.rect ⟨(i 0).val / 5000, ht⟩)).set
  rw [View.set_slice_whole, Rect.mem_set_unit]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 128 ≤ (i 1).val ∧ (i 1).val < win2_2.index ⟨(i 0).val / 5000, ht⟩ 1 * 128 + 128
    rw [e5]; omega

/-- So the result array of the second product ends at the whole-array result of its two operands as the region finds them. -/
theorem final2 (c : Dev nD) : (dat2 V c).arrAt 2 cfg2.N = prod (V c main_v45) (V c main_arg4) :=
  (dat2 V c).arrAt_eq_of_cover 2 (prod (V c main_v45) (V c main_arg4)) (fun t _ => flushed2 V c t) cover2

end Region2

section Region3

variable (V : (c : Dev nD) → (b : Ref sig .tc) → Buf (Elt Ideal) ((c : Thread nD τ).loc b))

/-- The index maps of the last bias step's windows over its ten row tiles: the summed array and the result move down one
    tile per point, the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) (p : Fin 5000) : t.val * 5000 + p.val < 50000 := by
  have h : t.val < 10 := (show t.val < grid3.N from t.isLt).trans_eq N_3
  have := p.isLt; omega

/-- Row `p` of tile `t` of the summed array is row `5000 t + p` of the array. -/
theorem read3_x (c : Dev nD) (t : Fin cfg3.N) (p : Fin 5000) (d : Fin 128) :
    iblk3 V c 0 t (ix2 p d) = (V c main_v59 : S50000x128.Idx → EReal) (ix2 ⟨t.val * 5000 + p.val, lt3 t p⟩ d) := by
  obtain ⟨e0, e1, -⟩ := idx3 t
  unfold iblk3
  rw [View.read_apply]
  show V c main_v59 _ = V c main_v59 _
  congr 1
  funext a; apply Fin.ext
  match a with
  | ⟨0, _⟩ => show win3_0.index t 0 * 5000 + 1 * p.val = t.val * 5000 + p.val; rw [e0]; omega
  | ⟨1, _⟩ => show win3_0.index t 1 * 128 + 1 * d.val = d.val; rw [e1]; omega

/-- The bias row's one block is the whole row. -/
theorem read3_w (c : Dev nD) (t : Fin cfg3.N) (u : Fin 1) (q : Fin 128) :
    iblk3 V c 1 t (ix2 u q) = (V c main_v60 : S1x128.Idx → EReal) (ix2 u q) := by
  obtain ⟨-, -, e2, e3, -⟩ := idx3 t
  unfold iblk3
  rw [View.read_apply]
  show V c main_v60 _ = V c main_v60 _
  congr 1
  funext a; apply Fin.ext
  match a with
  | ⟨0, _⟩ => show win3_1.index t 0 * 1 + 1 * u.val = u.val; rw [e2]; omega
  | ⟨1, _⟩ => show win3_1.index t 1 * 128 + 1 * q.val = q.val; rw [e3]; omega

/-- Entry `(p, q)` of the result's tile `t` is entry `(5000 t + p, q)` of the array. -/
theorem out3_idx (t : Fin cfg3.N) (p : Fin 5000) (q : Fin 128) :
    (((cfg3.win 2).blk t).view.emb (ix2 p q) : S50000x128.Idx) = ix2 ⟨t.val * 5000 + p.val, lt3 t p⟩ q := by
  obtain ⟨-, -, -, -, e4, e5⟩ := idx3 t
  funext a; apply Fin.ext
  match a with
  | ⟨0, _⟩ => show win3_2.index t 0 * 5000 + 1 * p.val = t.val * 5000 + p.val; rw [e4]; omega
  | ⟨1, _⟩ => show win3_2.index t 1 * 128 + 1 * q.val = q.val; rw [e5]; omega

/-- What row tile `t` writes back is tile `t` of the whole-array result. -/
theorem flushed3 (c : Dev nD) (t : Fin cfg3.N) :
    (dat3 V c).flushed 2 t = ((cfg3.win 2).blk t).view.read (Elt Ideal) (biasAdd (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (tile_biasAdd _ _ p q).trans ?_
  rw [View.read_apply]
  show _ = biasAdd (V c main_v59) (V c main_v60) (((cfg3.win 2).blk t).view.emb (ix2 p q))
  rw [out3_idx t p q]
  refine Eq.trans ?_ (biasAdd_ix2 (V c main_v59) (V c main_v60) ⟨t.val * 5000 + p.val, lt3 t p⟩ q).symm
  rw [read3_x V c t p q, read3_w V c t 0 q]

/-- Every row of the result lies in some tile. -/
theorem cover3 (i : S50000x128.Idx) :
    ∃ t : Fin cfg3.N, (cfg3.win 2).flush t = true ∧ i ∈ ((cfg3.win 2).blk t).view.set := by
  have hi0 : (i 0).val < 50000 := idx2_lt0 i
  have hi1 : (i 1).val < 128 := idx2_lt1 i
  have ht : (i 0).val / 5000 < grid3.N := by rw [N_3]; omega
  obtain ⟨-, -, -, -, e4, e5⟩ := idx3 ⟨(i 0).val / 5000, ht⟩
  refine ⟨⟨(i 0).val / 5000, ht⟩, flush3_2 _, ?_⟩
  show i ∈ ((View.whole main_v61).slice (win3_2.rect ⟨(i 0).val / 5000, ht⟩)).set
  rw [View.set_slice_whole, Rect.mem_set_unit]
  intro a
  match a with
  | ⟨0, _⟩ =>
    show win3_2.index ⟨(i 0).val / 5000, ht⟩ 0 * 5000 ≤ (i 0).val ∧ (i 0).val < win3_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ 1 * 128 ≤ (i 1).val ∧ (i 1).val < win3_2.index ⟨(i 0).val / 5000, ht⟩ 1 * 128 + 128
    rw [e5]; omega

/-- So the result array of the last bias step ends at the whole-array result of its two operands as the region finds them. -/
theorem final3 (c : Dev nD) : (dat3 V c).arrAt 2 cfg3.N = biasAdd (V c main_v59) (V c main_v60) :=
  (dat3 V c).arrAt_eq_of_cover 2 (biasAdd (V c main_v59) (V c main_v60)) (fun t _ => flushed3 V c t) cover3

end Region3

end Cert.KernelIdeal.Layers

end
-- ==== Proof.KValue.lean ====
import proofs.«137167_j42649025249306_1_alg».proof.Proof.KStages
import proofs.«137167_j42649025249306_1_alg».proof.Proof.KRegionArrays
import proofs.«137167_j42649025249306_1_alg».proof.Proof.KernelRunP

set_option maxRecDepth 16384

noncomputable section

open Idealize.ShloMosaic Idealize.ShloMosaic.TcCoe Idealize.SL.Sem Idealize.ShloMosaic.ValueIdx

namespace Cert.KernelIdeal.Layers

open Cert.KernelIdeal Cert.KernelIdeal.Gen

/-- The kernel's two layers as one function of the arguments: each layer a tiled product, one aggregation over the
    graph and a tiled bias step, the first clipped below at zero. -/
def outK (x : Arr Ideal S50000x128 .f32) (e : Arr Ideal S2x800000 .i32) (w1 : Arr Ideal S128x128 .f32) (b1 : Arr Ideal S128 .f32)
    (w2 : Arr Ideal S128x128 .f32) (b2 : Arr Ideal S128 .f32) : Arr Ideal S50000x128 .f32 :=
  biasAdd (agg (rows e) (cols e) (norm (rows e) (cols e))
      (prod (biasRelu (agg (rows e) (cols e) (norm (rows e) (cols e)) (prod x w1)) (rowOf b1)) w2))
    (rowOf b2)

variable (m : (ℓ : Loc nD τ sig) → Buf (Elt Ideal) ℓ) (ρ : Dev nD → PrngReg)

/-! ## The contents at each boundary of the run, read back to the arguments -/

/-- When the first product is entered: both index lists and the edge weights are built, the float arguments untouched. -/
theorem at3 (c : Dev nD) :
    W3 m ρ c (Proc.devRef .tc main_v5) = rows (m ((c : Thread nD τ).loc main_arg1))
    ∧ W3 m ρ c (Proc.devRef .tc main_v6) = cols (m ((c : Thread nD τ).loc main_arg1))
    ∧ W3 m ρ c (Proc.devRef .tc main_v29) = norm (rows (m ((c : Thread nD τ).loc main_arg1))) (cols (m ((c : Thread nD τ).loc main_arg1)))
    ∧ W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5) := by
  have h5 : W2 m ρ c (Proc.devRef .tc main_v5) = rows (m ((c : Thread nD τ).loc main_arg1)) :=
    (k01_v5 _).trans (s0_rows _)
  have h6 : W2 m ρ c (Proc.devRef .tc main_v6) = cols (m ((c : Thread nD τ).loc main_arg1)) :=
    (k01_v6 _).trans (s0_cols _)
  have h14 : W2 m ρ c (Proc.devRef .tc main_v14) = dinv (rows (m ((c : Thread nD τ).loc main_arg1))) := by
    have h12 : W1 m ρ c (Proc.devRef .tc main_v12) = _ := s0_pos (W0 m ρ c)
    have h13 : W1 m ρ c (Proc.devRef .tc main_v13) = _ := s0_rsqrt (W0 m ρ c)
    have h0 : W1 m ρ c (Proc.devRef .tc main_cst_2) = _ := s0_zero (W0 m ρ c)
    refine (s01_dinv _).trans ?_
    rw [h12, h13, h0]
    rfl
  refine ⟨(k02_v5 _).trans h5, (k02_v6 _).trans h6, ?_,
    (k02_arg0 _).trans ((k01_arg0 _).trans (k0_arg0 _)), (k02_arg2 _).trans ((k01_arg2 _).trans (k0_arg2 _)),
    (k02_arg3 _).trans ((k01_arg3 _).trans (k0_arg3 _)), (k02_arg4 _).trans ((k01_arg4 _).trans (k0_arg4 _)),
    (k02_arg5 _).trans ((k01_arg5 _).trans (k0_arg5 _))⟩
  refine (s02_norm _).trans ?_
  rw [h5, h6, h14]
  rfl

/-- The first product's result array holds the whole product of the features with the first weights; the rest is kept. -/
theorem at4 (c : Dev nD) :
    W4 m ρ c (Proc.devRef .tc main_v5) = rows (m ((c : Thread nD τ).loc main_arg1))
    ∧ W4 m ρ c (Proc.devRef .tc main_v6) = cols (m ((c : Thread nD τ).loc main_arg1))
    ∧ W4 m ρ c (Proc.devRef .tc main_v29) = norm (rows (m ((c : Thread nD τ).loc main_arg1))) (cols (m ((c : Thread nD τ).loc main_arg1)))
    ∧ W4 m ρ c (Proc.devRef .tc main_v30) = prod (m ((c : Thread nD τ).loc main_arg0)) (m ((c : Thread nD τ).loc main_arg2))
    ∧ W4 m ρ c (Proc.devRef .tc main_arg3) = m ((c : Thread nD τ).loc main_arg3)
    ∧ W4 m ρ c (Proc.devRef .tc main_arg4) = m ((c : Thread nD τ).loc main_arg4)
    ∧ W4 m ρ c (Proc.devRef .tc main_arg5) = m ((c : Thread nD τ).loc main_arg5) := by
  obtain ⟨h5, h6, h29, h0, h2, h3, h4, h5'⟩ := at3 m ρ c
  refine ⟨(W4_of_ne m ρ c main_v5 (by decide)).trans h5, (W4_of_ne m ρ c main_v6 (by decide)).trans h6,
    (W4_of_ne m ρ c main_v29 (by decide)).trans h29, ?_,
    (W4_of_ne m ρ c main_arg3 (by decide)).trans h3, (W4_of_ne m ρ c main_arg4 (by decide)).trans h4,
    (W4_of_ne m ρ c main_arg5 (by decide)).trans h5'⟩
  refine (W4_arr m ρ c 2).trans ((final0 (V3 m ρ) c).trans ?_)
  show prod (W3 m ρ c (Proc.devRef .tc main_arg0)) (W3 m ρ c (Proc.devRef .tc main_arg2)) = _
  rw [h0, h2]

/-- After the stretch that follows: the first aggregation and the first bias as a row. -/
theorem at5 (c : Dev nD) :
    W5 m ρ c (Proc.devRef .tc main_v5) = rows (m ((c : Thread nD τ).loc main_arg1))
    ∧ W5 m ρ c (Proc.devRef .tc main_v6) = cols (m ((c : Thread nD τ).loc main_arg1))
    ∧ W5 m ρ c (Proc.devRef .tc main_v29) = norm (rows (m ((c : Thread nD τ).loc main_arg1))) (cols (m ((c : Thread nD τ).loc main_arg1)))
    ∧ W5 m ρ c (Proc.devRef .tc main_v43) = agg (rows (m ((c : Thread nD τ).loc main_arg1))) (cols (m ((c : Thread nD τ).loc main_arg1)))
        (norm (rows (m ((c : Thread nD τ).loc main_arg1))) (cols (m ((c : Thread nD τ).loc main_arg1))))
        (prod (m ((c : Thread nD τ).loc main_arg0)) (m ((c : Thread nD τ).loc main_arg2)))
    ∧ W5 m ρ c (Proc.devRef .tc main_v44) = rowOf (m ((c : Thread nD τ).loc main_arg3))
    ∧ W5 m ρ c (Proc.devRef .tc main_arg4) = m ((c : Thread nD τ).loc main_arg4)
    ∧ W5 m ρ c (Proc.devRef .tc main_arg5) = m ((c : Thread nD τ).loc main_arg5) := by
  obtain ⟨h5, h6, h29, h30, h3, h4, h5'⟩ := at4 m ρ c
  refine ⟨(k1_v5 _).trans h5, (k1_v6 _).trans h6, (k1_v29 _).trans h29, ?_, ?_, (k1_arg4 _).trans h4, (k1_arg5 _).trans h5'⟩
  · refine (s1_agg _).trans ?_
    rw [h5, h6, h29, h30]
  · refine (s1_row _).trans ?_
    rw [h3]

/-- The first bias step's result array: the aggregation plus the bias on every row, clipped below at zero. -/
theorem at6 (c : Dev nD) :
    W6 m ρ c (Proc.devRef .tc main_v5) = rows (m ((c : Thread nD τ).loc main_arg1))
    ∧ W6 m ρ c (Proc.devRef .tc main_v6) = cols (m ((c : Thread nD τ).loc main_arg1))
    ∧ W6 m ρ c (Proc.devRef .tc main_v29) = norm (rows (m ((c : Thread nD τ).loc main_arg1))) (cols (m ((c : Thread nD τ).loc main_arg1)))
    ∧ W6 m ρ c (Proc.devRef .tc main_v45) = biasRelu (agg (rows (m ((c : Thread nD τ).loc main_arg1))) (cols (m ((c : Thread nD τ).loc main_arg1)))
        (norm (rows (m ((c : Thread nD τ).loc main_arg1))) (cols (m ((c : Thread nD τ).loc main_arg1))))
        (prod (m ((c : Thread nD τ).loc main_arg0)) (m ((c : Thread nD τ).loc main_arg2)))) (rowOf (m ((c : Thread nD τ).loc main_arg3)))
    ∧ W6 m ρ c (Proc.devRef .tc main_arg4) = m ((c : Thread nD τ).loc main_arg4)
    ∧ W6 m ρ c (Proc.devRef .tc main_arg5) = m ((c : Thread nD τ).loc main_arg5) := by
  obtain ⟨h5, h6, h29, h43, h44, h4, h5'⟩ := at5 m ρ c
  refine ⟨(W6_of_ne m ρ c main_v5 (by decide)).trans h5, (W6_of_ne m ρ c main_v6 (by decide)).trans h6,
    (W6_of_ne m ρ c main_v29 (by decide)).trans h29, ?_,
    (W6_of_ne m ρ c main_arg4 (by decide)).trans h4, (W6_of_ne m ρ c main_arg5 (by decide)).trans h5'⟩
  refine (W6_arr m ρ c 2).trans ((final1 (V5 m ρ) c).trans ?_)
  show biasRelu (W5 m ρ c (Proc.devRef .tc main_v43)) (W5 m ρ c (Proc.devRef .tc main_v44)) = _
  rw [h43, h44]

/-- The second product's result array: the whole product of that with the second weights. -/
theorem at7 (c : Dev nD) :
    W7 m ρ c (Proc.devRef .tc main_v5) = rows (m ((c : Thread nD τ).loc main_arg1))
    ∧ W7 m ρ c (Proc.devRef .tc main_v6) = cols (m ((c : Thread nD τ).loc main_arg1))
    ∧ W7 m ρ c (Proc.devRef .tc main_v29) = norm (rows (m ((c : Thread nD τ).loc main_arg1))) (cols (m ((c : Thread nD τ).loc main_arg1)))
    ∧ W7 m ρ c (Proc.devRef .tc main_v46) = prod (biasRelu (agg (rows (m ((c : Thread nD τ).loc main_arg1))) (cols (m ((c : Thread nD τ).loc main_arg1)))
        (norm (rows (m ((c : Thread nD τ).loc main_arg1))) (cols (m ((c : Thread nD τ).loc main_arg1))))
        (prod (m ((c : Thread nD τ).loc main_arg0)) (m ((c : Thread nD τ).loc main_arg2)))) (rowOf (m ((c : Thread nD τ).loc main_arg3))))
        (m ((c : Thread nD τ).loc main_arg4))
    ∧ W7 m ρ c (Proc.devRef .tc main_arg5) = m ((c : Thread nD τ).loc main_arg5) := by
  obtain ⟨h5, h6, h29, h45, h4, h5'⟩ := at6 m ρ c
  refine ⟨(W7_of_ne m ρ c main_v5 (by decide)).trans h5, (W7_of_ne m ρ c main_v6 (by decide)).trans h6,
    (W7_of_ne m ρ c main_v29 (by decide)).trans h29, ?_, (W7_of_ne m ρ c main_arg5 (by decide)).trans h5'⟩
  refine (W7_arr m ρ c 2).trans ((final2 (V6 m ρ) c).trans ?_)
  show prod (W6 m ρ c (Proc.devRef .tc main_v45)) (W6 m ρ c (Proc.devRef .tc main_arg4)) = _
  rw [h45, h4]

/-- The result array after the run is the two layers of the arguments. -/
theorem at9 (c : Dev nD) :
    W9 m ρ c (Proc.devRef .tc main_v61) = outK (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  obtain ⟨h5, h6, h29, h46, h5'⟩ := at7 m ρ c
  have h59 : W8 m ρ c (Proc.devRef .tc main_v59) = _ := (s3_agg (W7 m ρ c)).trans (by rw [h5, h6, h29, h46])
  have h60 : W8 m ρ c (Proc.devRef .tc main_v60) = _ := (s3_row (W7 m ρ c)).trans (by rw [h5'])
  refine (W9_arr m ρ c 2).trans ((final3 (V8 m ρ) c).trans ?_)
  show biasAdd (W8 m ρ c (Proc.devRef .tc main_v59)) (W8 m ρ c (Proc.devRef .tc main_v60)) = _
  rw [h59, h60]
  rfl

/-- The kernel's run with its result read: every weakly fair execution ends with the result array at the two layers of
    the arguments and the arguments as launched. -/
theorem run : θ_run defs (onTc (τ := τ) (main (F := Ideal))) ⟨m, fun _ => 0, ρ⟩ (fun r => ∀ c : Dev nD,
      r.2.mem ((c.tc : Thread nD τ).loc main_v61) = outK (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (at9 m ρ c), (h c).2⟩) (Cert.KernelIdeal.GenP.run_out m ρ)

end Cert.KernelIdeal.Layers

end
-- ==== Proof.RStages.lean ====
import proofs.«137167_j42649025249306_1_alg».proof.Proof.RefRunP

noncomputable section

open Idealize.ShloMosaic Idealize.ShloMosaic.TcCoe Idealize.SL.Sem Idealize.ShloMosaic.StableHlo

namespace Cert.ReferenceIdeal.Layers

open Cert.ReferenceIdeal Cert.ReferenceIdeal.Gen

variable {F : FTy → Type} [FloatOps F]

/-- An array of a shape and element type, as the host operations take it. -/
abbrev Arr (F : FTy → Type) (s : Shape) (e : EltTy) : Type := (⟨s, e⟩ : BufTy).Contents (Elt F)

/-! ## The reference's pieces, as functions of the edge list `e` ([2, 800000]: row 0 where a message is summed, row 1
where it is read; every node also sends to itself) -/

/-- Where messages are summed: edge row 0, then every node. -/
def rows (e : Arr F S2x800000 .i32) : Arr F S850000 .i32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- Where messages are read: edge row 1, then every node. -/
def cols (e : Arr F S2x800000 .i32) : Arr F S850000 .i32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- An index list as a gather's start indices: a negative index counted from the end, then one column. -/
def wrap (i : Arr F S850000 .i32) : Arr F S850000x1 .i32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- Each node's degree: ones summed at `r`. -/
def deg (r : Arr F S850000 .i32) : Arr F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 r)
    (broadcastInDim S850000 ![] bcast_S_S850000 (constant S_ .f32 0x3F800000#32))

/-- deg^(-1/2) where the degree is positive, 0 elsewhere. -/
def dinv (r : Arr F S850000 .i32) : Arr F S50000 .f32 :=
  select (cmpf .ogt (deg r) (broadcastInDim S50000 ![] bcast_S_S50000 (constant S_ .f32 0x00000000#32)))
    (Host.rsqrt (deg r))
    (broadcastInDim S50000 ![] bcast_S_S50000 (id (constant S_ .f32 0x00000000#32)))

/-- The weight of each edge: dinv where it is summed times dinv where it is read. -/
def norm (r c : Arr F S850000 .i32) : Arr F S850000 .f32 :=
  mulf (Host.gather gather_S50000_S850000x1_S850000_n_0_n_n_0_1_1 (dinv r) (wrap r))
    (Host.gather gather_S50000_S850000x1_S850000_n_0_n_n_0_1_1 (dinv r) (wrap c))

/-- One aggregation: the rows of `xw` read at `c`, each scaled by its edge's weight, summed at `r`. -/
def agg (r c : Arr F S850000 .i32) (n : Arr F S850000 .f32) (xw : Arr F S50000x128 .f32) : Arr F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 r)
    (mulf (broadcastInDim S850000x128 ![0, 1] bcast_S850000x1_S850000x128_0_1 (broadcastInDim S850000x1 ![0] bcast_S850000_S850000x1_0 n))
      (Host.gather gather_S50000x128_S850000x1_S850000x128_1_0_n_n_0_1_1128 xw (wrap c)))

/-- A bias vector repeated on every row. -/
def biasAll (b : Arr F S128 .f32) : Arr F S50000x128 .f32 :=
  broadcastInDim S50000x128 ![0, 1] bcast_S1x128_S50000x128_0_1 (broadcastInDim S1x128 ![1] bcast_S128_S1x128_1 b)

/-- The dense product. -/
def dense (x : Arr F S50000x128 .f32) (w : Arr F S128x128 .f32) : Arr F S50000x128 .f32 :=
  Host.dotGeneral dot_S50000x128_S128x128_S50000x128_1_0_0_1_n_n none x w

/-- Clipping below at zero. -/
def relu (x : Arr F S50000x128 .f32) : Arr F S50000x128 .f32 :=
  maximumf x (broadcastInDim S50000x128 ![] bcast_S_S50000x128 (constant S_ .f32 0x00000000#32))

/-- The two layers: product, aggregation, bias; clipped between them. -/
def out (x : Arr F S50000x128 .f32) (e : Arr F S2x800000 .i32) (w1 : Arr F S128x128 .f32) (b1 : Arr F S128 .f32)
    (w2 : Arr F S128x128 .f32) (b2 : Arr F S128 .f32) : Arr F S50000x128 .f32 :=
  addf (agg (rows e) (cols e) (norm (rows e) (cols e))
      (dense (relu (addf (agg (rows e) (cols e) (norm (rows e) (cols e)) (dense x w1)) (biasAll b1))) w2))
    (biasAll b2)

set_option maxRecDepth 8192 in
/-- The reference run's composed term is those two layers of the arguments. -/
theorem res_eq (m : (ℓ : Loc nD τ sig) → Buf (Elt F) ℓ) (c : Dev nD) :
    RunP.res_main_v64 m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold RunP.res_main_v64 out agg norm dinv deg wrap rows cols dense relu biasAll
  rfl

end Cert.ReferenceIdeal.Layers

end
-- ==== Proof.Bridge.lean ====
import proofs.«137167_j42649025249306_1_alg».proof.Proof.KStages
import proofs.«137167_j42649025249306_1_alg».proof.Proof.KRegions
import proofs.«137167_j42649025249306_1_alg».proof.Proof.RStages
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.Bridge

open Cert.KernelIdeal (S50000x128 S2x800000 S128x128 S128 S1x128 S850000 S_)

namespace K
export Cert.KernelIdeal.Layers (Arr rows cols wrap deg dinv norm agg rowOf prod biasRelu biasAdd)
end K
namespace R
export Cert.ReferenceIdeal.Layers (rows cols wrap deg dinv norm agg biasAll dense relu out)
end R

/-! ## The graph side: the two programs apply the same host operations -/

section Graph

variable {F : FTy → Type} [FloatOps F]

theorem rows_eq (e : K.Arr F S2x800000 .i32) : K.rows e = R.rows e := rfl
theorem cols_eq (e : K.Arr F S2x800000 .i32) : K.cols e = R.cols e := rfl
theorem norm_eq (r c : K.Arr F S850000 .i32) : K.norm r c = R.norm r c := rfl
theorem agg_eq (r c : K.Arr F S850000 .i32) (n : K.Arr F S850000 .f32) (xw : K.Arr F S50000x128 .f32) :
    K.agg r c n xw = R.agg r c n xw := rfl

end Graph

/-! ## The dense side, at the extended reals -/

/-- The tiled product is the host's dense product: both are the textbook sum at every entry. -/
theorem prod_eq (x : K.Arr Ideal S50000x128 .f32) (w : K.Arr Ideal S128x128 .f32) : K.prod x w = R.dense x w := by
  funext i
  obtain ⟨p, q, rfl⟩ : ∃ (p : Fin 50000) (q : Fin 128), i = ix2 p q := ⟨i 0, i 1, eq_ix2 i⟩
  refine (Cert.KernelIdeal.Layers.prod_ix2 x w p q).trans ?_
  exact (PlainProduct.dotGeneral_apply Cert.ReferenceIdeal.dot_S50000x128_S128x128_S50000x128_1_0_0_1_n_n rfl rfl
    (fun _ _ => rfl) (fun _ _ => rfl) (fun _ _ => rfl) (fun _ _ => rfl) none x w p q).symm

/-- A bias repeated on every row, read at an entry, is the bias at the entry's column. -/
theorem biasAll_apply (b : K.Arr Ideal S128 .f32) (p : Fin 50000) (q : Fin 128) :
    R.biasAll b (ix2 p q) = b (ix1 q) := by
  unfold Cert.ReferenceIdeal.Layers.biasAll
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The bias as a row, read at its one row, is the bias at the column. -/
theorem rowOf_apply (b : K.Arr Ideal S128 .f32) (q : Fin 128) : K.rowOf b (ix2 (0 : Fin 1) q) = b (ix1 q) :=
  shapeCast_a_1a_apply b _ 0 q

/-- The tiled bias step with the clip is the host's add, then its clip. -/
theorem biasRelu_eq (x : K.Arr Ideal S50000x128 .f32) (b : K.Arr Ideal S128 .f32) :
    K.biasRelu x (K.rowOf b) = R.relu (addf x (R.biasAll b)) := by
  funext i
  obtain ⟨p, q, rfl⟩ : ∃ (p : Fin 50000) (q : Fin 128), i = ix2 p q := ⟨i 0, i 1, eq_ix2 i⟩
  refine (Cert.KernelIdeal.Layers.biasRelu_ix2 x (K.rowOf b) p q).trans ?_
  rw [rowOf_apply]
  unfold Cert.ReferenceIdeal.Layers.relu
  rw [maximumf_apply, addf_apply, biasAll_apply]
  rfl

/-- The last tiled bias step is the host's add. -/
theorem biasAdd_eq (x : K.Arr Ideal S50000x128 .f32) (b : K.Arr Ideal S128 .f32) :
    K.biasAdd x (K.rowOf b) = addf x (R.biasAll b) := by
  funext i
  obtain ⟨p, q, rfl⟩ : ∃ (p : Fin 50000) (q : Fin 128), i = ix2 p q := ⟨i 0, i 1, eq_ix2 i⟩
  refine (Cert.KernelIdeal.Layers.biasAdd_ix2 x (K.rowOf b) p q).trans ?_
  rw [rowOf_apply, addf_apply, biasAll_apply]

end Cert.Bridge

end
-- ==== Proof.lean ====
/-
  Two stacked graph-convolution layers, the kernel against its jnp reference, over the extended reals.

  Each layer is: a dense product X·W; one aggregation over the graph (every edge reads a row of X·W where the edge starts,
  scales it by the edge's weight dinv[target]·dinv[source], and the rows are summed where the edge ends; every node also sends
  to itself); and a bias added on every row, the first layer's result clipped below at zero. The kernel computes the two
  products and the two bias steps tile by tile (ten tiles of 5000 rows) and leaves the graph side — the index lists, the
  degrees, the weights, the gathers and the scatter-adds — to the same host operations the reference uses.

  So the two programs differ only in the dense steps, and there only in their arrangement: at the extended reals a tile's
  matmul into the zero accumulator is the textbook sum Σ_d x[i,d]·w[d,j] at every entry (its operands' change of format is
  the identity), which is also what the host's dot_general is; a bias row broadcast inside a tile is the bias broadcast over the
  whole array; max with 0 is max with 0. No law of arithmetic is used beyond that, so the precondition is never opened.

  The kernel's run is read boundary by boundary (Proof/KValue.lean) over the whole-array form of each region's result
  (Proof/KRegions.lean, Proof/KRegionArrays.lean) and the host stretches between them (Proof/KStages.lean); the reference's
  run is its operations' composed term (Proof/RefRunP.lean), folded into the same shape (Proof/RStages.lean); Proof/Bridge.lean
  joins the two shapes piece by piece.
-/
import proofs.«137167_j42649025249306_1_alg».proof.Defs
import proofs.«137167_j42649025249306_1_alg».proof.Proof.Gen.Kernel
import proofs.«137167_j42649025249306_1_alg».proof.Proof.Gen.Kernel.Skeleton
import proofs.«137167_j42649025249306_1_alg».proof.Proof.Gen.Kernel.Launch
import proofs.«137167_j42649025249306_1_alg».proof.Proof.Gen.Kernel.Points
import proofs.«137167_j42649025249306_1_alg».proof.Proof.Gen.Kernel.Frame
import proofs.«137167_j42649025249306_1_alg».proof.Proof.Gen.KernelIdeal
import proofs.«137167_j42649025249306_1_alg».proof.Proof.Gen.KernelIdeal.Skeleton
import proofs.«137167_j42649025249306_1_alg».proof.Proof.Gen.KernelIdeal.Launch
import proofs.«137167_j42649025249306_1_alg».proof.Proof.Gen.KernelIdeal.Points
import proofs.«137167_j42649025249306_1_alg».proof.Proof.Gen.KernelIdeal.Frame
import proofs.«137167_j42649025249306_1_alg».proof.Proof.Gen.ReferenceIdeal
import proofs.«137167_j42649025249306_1_alg».proof.Proof.Gen.Pre_finite_inputs
import proofs.«137167_j42649025249306_1_alg».proof.Proof.KValue
import proofs.«137167_j42649025249306_1_alg».proof.Proof.RStages
import proofs.«137167_j42649025249306_1_alg».proof.Proof.Bridge
import Idealize.ShloMosaic.Adequacy
import Idealize.ShloMosaic.Init

noncomputable section

namespace Cert.Proof

open Idealize.ShloMosaic Idealize.SL.Sem Idealize.ShloMosaic.TcCoe

/-- The kernel's two layers are the reference's: the graph side is shared, each dense step is joined by its own lemma. -/
theorem layers_eq (x : Cert.KernelIdeal.Layers.Arr Ideal Cert.KernelIdeal.S50000x128 .f32)
    (e : Cert.KernelIdeal.Layers.Arr Ideal Cert.KernelIdeal.S2x800000 .i32)
    (w1 : Cert.KernelIdeal.Layers.Arr Ideal Cert.KernelIdeal.S128x128 .f32) (b1 : Cert.KernelIdeal.Layers.Arr Ideal Cert.KernelIdeal.S128 .f32)
    (w2 : Cert.KernelIdeal.Layers.Arr Ideal Cert.KernelIdeal.S128x128 .f32) (b2 : Cert.KernelIdeal.Layers.Arr Ideal Cert.KernelIdeal.S128 .f32) :
    Cert.KernelIdeal.Layers.outK x e w1 b1 w2 b2 = Cert.ReferenceIdeal.Layers.out (F := Ideal) x e w1 b1 w2 b2 := by
  unfold Cert.KernelIdeal.Layers.outK Cert.ReferenceIdeal.Layers.out
  rw [Cert.Bridge.biasAdd_eq, Cert.Bridge.prod_eq, Cert.Bridge.biasRelu_eq, Cert.Bridge.prod_eq]
  simp only [Cert.Bridge.agg_eq, Cert.Bridge.norm_eq, Cert.Bridge.rows_eq, Cert.Bridge.cols_eq]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end, the kernel's result at its two layers of the arguments, the reference's at its own two layers of
    arguments that agree: one function. -/
theorem algebraic : Cert.algebraic_KernelIdeal_ReferenceIdeal := by
  intro m ρ m' ρ' _ hagree
  refine ⟨fun c => Cert.KernelIdeal.Layers.outK (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Layers.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Layers.res_eq, (hagree c).1, (hagree c).2.1, (hagree c).2.2.1, (hagree c).2.2.2.1,
    (hagree c).2.2.2.2.1, (hagree c).2.2.2.2.2]
  exact (layers_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
